-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1 : Shape := ⟨2, ![4, 1]⟩
abbrev S4 : Shape := ⟨1, ![4]⟩
abbrev S_ : Shape := ⟨0, ![]⟩
abbrev S4x1024x3 : Shape := ⟨3, ![4, 1024, 3]⟩
abbrev S4x512x3 : Shape := ⟨3, ![4, 512, 3]⟩
abbrev S4x1024 : Shape := ⟨2, ![4, 1024]⟩
abbrev S4x1024x1 : Shape := ⟨3, ![4, 1024, 1]⟩
abbrev S4x512 : Shape := ⟨2, ![4, 512]⟩
abbrev S4x512x1 : Shape := ⟨3, ![4, 512, 1]⟩
abbrev S4x1024x512 : Shape := ⟨3, ![4, 1024, 512]⟩
abbrev S4x1x512 : Shape := ⟨3, ![4, 1, 512]⟩

abbrev nBuf : Space → Nat
  | .hbm => 8
  | .vmem => 7
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1, .f32⟩
  | .hbm, ⟨3, _⟩ => ⟨S4, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S4x1024x3, .f32⟩
  | .local _ .vmem, ⟨1, _⟩ => ⟨S4x1024x3, .f32⟩
  | .local _ .vmem, ⟨2, _⟩ => ⟨S4x512x3, .f32⟩
  | .local _ .vmem, ⟨3, _⟩ => ⟨S4x512x3, .f32⟩
  | .local _ .vmem, ⟨4, _⟩ => ⟨S4x1, .f32⟩
  | .local _ .vmem, ⟨5, _⟩ => ⟨S4x1024, .f32⟩
  | .local _ .vmem, ⟨6, _⟩ => ⟨S4x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_cst_0 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 16], ![false, false]⟩

def k0_cond4 (i : grid0.Coords) : BitVec 1 :=
  let arg0 : BitVec 32 := BitVec.ofNat 32 (i 0).val
  let c7_i32 : BitVec 32 := 7#32
  let v33 : BitVec 1 := Scalar.cmpi .eq arg0 c7_i32
  let arg1 : BitVec 32 := BitVec.ofNat 32 (i 1).val
  let c15_i32_18 : BitVec 32 := 15#32
  let v34 : BitVec 1 := Scalar.cmpi .eq arg1 c15_i32_18
  let v35 : BitVec 1 := Scalar.andi v33 v34
  let v36 : BitVec 32 := Scalar.extui v35
  let c0_i32_19 : BitVec 32 := 0#32
  let v37 : BitVec 1 := Scalar.cmpi .ne v36 c0_i32_19
  v37

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  shapeCasts_S4x1_S4 : S4x1.ShapeCasts S4
  reducesTo_S4_S_d0 : S4.ReducesTo [0] S_
  h_S_ : 0 < S_.numel
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S4x1_S4x1_0_0 : ∀ a, (![0, 0] : Fin 2 → Nat) a + S4x1.size a ≤ S4x1.size a
  h_S4x1 : 0 < S4x1.numel
  shapeCasts_S4x1_S4x1 : S4x1.ShapeCasts S4x1
  inb_S4x1024x3_S4x1024x3_0_0_0 : ∀ a, (![0, 0, 0] : Fin 3 → Nat) a + S4x1024x3.size a ≤ S4x1024x3.size a
  h_S4x1024x3 : 0 < S4x1024x3.numel
  inb_S4x512x3_S4x512x3_0_0_0 : ∀ a, (![0, 0, 0] : Fin 3 → Nat) a + S4x512x3.size a ≤ S4x512x3.size a
  h_S4x512x3 : 0 < S4x512x3.numel
  reduces_S4x1024x3_S4x1024 : S4x1024x3.Reduces [2] S4x1024
  shapeCasts_S4x1024_S4x1024x1 : S4x1024.ShapeCasts S4x1024x1
  reduces_S4x512x3_S4x512 : S4x512x3.Reduces [2] S4x512
  shapeCasts_S4x512_S4x512x1 : S4x512.ShapeCasts S4x512x1
  transposes_S4x512x1_p0_2_1_S4x1x512 : S4x512x1.Transposes [0, 2, 1] S4x1x512
  broadcasts_S4x1024x1_S4x1024x512 : S4x1024x1.Broadcasts S4x1024x512
  broadcasts_S4x1x512_S4x1024x512 : S4x1x512.Broadcasts S4x1024x512
  reduces_S4x1024x512_S4x1024 : S4x1024x512.Reduces [2] S4x1024
  reduces_S4x1024_S4 : S4x1024.Reduces [1] S4
  shapeCasts_S4_S4x1 : S4.ShapeCasts S4x1
  dot_S4x1024x3_S4x512x3_S4x1024x512_2_2_1_1_0_0_wf : DotDims.WF S4x1024x3 S4x512x3 S4x1024x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x3.size a ≤ S4x8192x3.size a
  hwx0_0 : ∀ i : grid0.Coords, EltTy.bits .f32 = 32 ∨ (Rect.block (s := S4x8192x3) S4x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1.size a ≤ S4x1.size a
  hwx0_2 : ∀ i : grid0.Coords, EltTy.bits .f32 = 32 ∨ (Rect.block (s := S4x1) S4x1.size (cc0_transform_2 i) (hinb0_2 i)).WholeWords (EltTy.packing .f32)

variable [Facts₀]

def dot_S4x1024x3_S4x512x3_S4x1024x512_2_2_1_1_0_0 : DotDims S4x1024x3 S4x512x3 S4x1024x512 where
  lhsContracting := [2]
  rhsContracting := [2]
  lhsNonContracting := [1]
  rhsNonContracting := [1]
  lhsBatch := [0]
  rhsBatch := [0]
  wf := dot_S4x1024x3_S4x512x3_S4x1024x512_2_2_1_1_0_0_wf

abbrev win0_0 : Pipeline.Window sig grid0 :=
  Pipeline.Window.ofSpec (Memref.whole main_arg0) S4x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S4x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S4x8192, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  bcast_S_S4x8192 : S_.BroadcastsInDim S4x8192 (![] : Fin 0 → Fin S4x8192.rank)
  reducesTo_S4x8192_S4_d1 : S4x8192.ReducesTo [1] S4
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Dist.lean ====
/-
  The squared distance between two points of two clouds, as both programs compute it, and the table of all of them.

  A cloud array has shape [4, P, 3]: four clouds of P points with three coordinates each. For point `p` of cloud `n` of
  `x` and point `q` of cloud `n` of `y` both programs form |x|² + |y|² − 2·⟨x, y⟩ with the three sums over the coordinate
  axis taken first, and the factor 2.0 as the float word the programs share. A block of consecutive points of a cloud array
  is again a cloud array, and the distance between points of two blocks is the distance between the points of the whole
  arrays the blocks were cut from.
-/
import Idealize.ShloMosaic.PureOps.Ideal.Laws
import Idealize.ShloMosaic.Lib.ValueIdx

noncomputable section

namespace Cert.Dist

open Idealize.ShloMosaic Idealize.ShloMosaic.ValueIdx

/-- The factor 2.0, as the float word both programs hold. -/
abbrev two : EReal := Ideal.ofBits .f32 0x40000000#32

variable {P Q : ℕ}

/-- |x|² + |y|² − 2·⟨x, y⟩ for point `p` of cloud `n` of `x` and point `q` of cloud `n` of `y`. -/
def d2 (x : (⟨3, ![4, P, 3]⟩ : Shape).Idx → EReal) (y : (⟨3, ![4, Q, 3]⟩ : Shape).Idx → EReal) (n : Fin 4) (p : Fin P) (q : Fin Q) : EReal :=
  ((∑ d : Fin 3, x (ix3 n p d) * x (ix3 n p d)) + (∑ d : Fin 3, y (ix3 n q d) * y (ix3 n q d)))
    - two * ∑ d : Fin 3, x (ix3 n p d) * y (ix3 n q d)

/-- Points `o` to `o + R - 1` of every cloud of `x`. -/
def rows (x : (⟨3, ![4, P, 3]⟩ : Shape).Idx → EReal) (o R : ℕ) (h : o + R ≤ P) : (⟨3, ![4, R, 3]⟩ : Shape).Idx → EReal :=
  fun i => x (ix3 (i 0) ⟨o + (i 1).val, by have hi : (i 1).val < R := (i 1).isLt; omega⟩ (i 2))

/-- The distance between points of two blocks is the distance between the points the blocks hold. -/
theorem d2_rows (x : (⟨3, ![4, P, 3]⟩ : Shape).Idx → EReal) (y : (⟨3, ![4, Q, 3]⟩ : Shape).Idx → EReal) (o R o' R' : ℕ)
    (h : o + R ≤ P) (h' : o' + R' ≤ Q) (n : Fin 4) (p : Fin R) (k : Fin R') :
    d2 (rows x o R h) (rows y o' R' h') n p k
      = d2 x y n ⟨o + p.val, by have := p.isLt; omega⟩ ⟨o' + k.val, by have := k.isLt; omega⟩ := rfl

/-- The table of squared distances of cloud `n` over all pairs of 8192 points, +∞ outside it. -/
def table (x y : (⟨3, ![4, 8192, 3]⟩ : Shape).Idx → EReal) (n : Fin 4) (p q : ℕ) : EReal :=
  if h : p < 8192 ∧ q < 8192 then d2 x y n ⟨p, h.1⟩ ⟨q, h.2⟩ else ⊤

theorem table_eq (x y : (⟨3, ![4, 8192, 3]⟩ : Shape).Idx → EReal) (n : Fin 4) (p q : Fin 8192) :
    table x y n p.val q.val = d2 x y n p q := dif_pos ⟨p.isLt, q.isLt⟩

end Cert.Dist

end
-- ==== Proof.Nearest.lean ====
/-
  Running minima over column tiles and running sums over row tiles, on the extended reals.

  `D p q` is a table of extended reals with 8192 rows and 8192 columns (here: the squared distance from point `p` of one
  cloud to point `q` of another), extended by anything past the last row and column. The least entry of a row can be
  taken tile by tile: the columns are cut into 16 tiles of 512, each tile's least entry is taken, and the running minimum
  over the tiles seen so far, started from +∞, is after the last tile the least entry of the whole row, because every
  column lies in exactly one tile. Likewise the sum over all rows of the row minima clamped at zero can be taken 1024 rows
  at a time, the partial sums added up from zero: addition on the extended reals is commutative and associative, so the
  grouping does not matter.
-/
import Idealize.ShloMosaic.PureOps.Ideal.Laws

noncomputable section

namespace Cert.Nearest

variable (D : ℕ → ℕ → EReal)

/-! ## The minimum of a row, tile by tile -/

/-- The least entry of row `p` among the columns of tile `j` (columns `512 j` to `512 j + 511`). -/
def tileMin (p j : ℕ) : EReal := ⨅ k : Fin 512, D p (512 * j + k.val)

/-- The least entry of row `p` among the first `J` column tiles; +∞ before any tile has been seen. -/
def runMin (p J : ℕ) : EReal := (Finset.range J).inf (tileMin D p)

/-- The least entry of row `p` among all 8192 columns. -/
def rowMin (p : ℕ) : EReal := ⨅ q : Fin 8192, D p q.val

theorem runMin_zero (p : ℕ) : runMin D p 0 = ⊤ := by
  unfold runMin; rw [Finset.range_zero, Finset.inf_empty]

/-- One more tile: the running minimum meets that tile's least entry. -/
theorem runMin_succ (p J : ℕ) : runMin D p (J + 1) = min (runMin D p J) (tileMin D p J) := by
  unfold runMin; rw [Finset.range_add_one, Finset.inf_insert, inf_comm]

/-- After all 16 tiles the running minimum is the row's minimum: column `q` lies in tile `q / 512` at place `q % 512`,
    and every place of every tile is a column. -/
theorem runMin_all (p : ℕ) : runMin D p 16 = rowMin D p := by
  unfold runMin rowMin
  apply le_antisymm
  · refine le_iInf fun q => ?_
    have hq := q.isLt
    have hj : q.val / 512 ∈ Finset.range 16 := Finset.mem_range.2 (by omega)
    refine (Finset.inf_le hj).trans ?_
    unfold tileMin
    refine (iInf_le _ (⟨q.val % 512, Nat.mod_lt _ (by norm_num)⟩ : Fin 512)).trans (le_of_eq ?_)
    show D p (512 * (q.val / 512) + q.val % 512) = D p q.val
    rw [Nat.div_add_mod]
  · refine Finset.le_inf fun j hj => le_iInf fun k => ?_
    have hj' := Finset.mem_range.1 hj
    have hk := k.isLt
    exact iInf_le (fun q : Fin 8192 => D p q.val) ⟨512 * j + k.val, by omega⟩

/-! ## The sum of the clamped row minima, 1024 rows at a time -/

/-- The row minima of row tile `i` (rows `1024 i` to `1024 i + 1023`), clamped at zero from below and summed. -/
def tileSum (i : ℕ) : EReal := ∑ k : Fin 1024, max (rowMin D (1024 * i + k.val)) 0

/-- The sum over the first `I` row tiles. -/
def runSum (I : ℕ) : EReal := ∑ i ∈ Finset.range I, tileSum D i

/-- The sum over all 8192 rows of the row minimum clamped at zero. -/
def total : EReal := ∑ p : Fin 8192, max (rowMin D p.val) 0

theorem runSum_zero : runSum D 0 = 0 := Finset.sum_range_zero _

theorem runSum_succ (I : ℕ) : runSum D (I + 1) = runSum D I + tileSum D I := Finset.sum_range_succ _ _

/-- After all 8 row tiles the running sum is the sum over every row: row `1024 i + k` is the `k`-th row of tile `i`. -/
theorem runSum_all : runSum D 8 = total D := by
  unfold runSum total tileSum
  rw [← Fin.sum_univ_eq_sum_range (fun i => ∑ k : Fin 1024, max (rowMin D (1024 * i + k.val)) 0) 8,
    ← Fintype.sum_prod_type']
  refine Fintype.sum_equiv (finProdFinEquiv : Fin 8 × Fin 1024 ≃ Fin 8192) _ _ fun x => ?_
  show _ = max (rowMin D (x.2.val + 1024 * x.1.val)) 0
  rw [Nat.add_comm]

end Cert.Nearest

end
-- ==== Proof.LibExtremum.lean ====
/-
  Extremes through reductions, on the extended reals.

  A minimum-reduction over some axes of an array, started from +∞, leaves at each reduced index the
  minimum of the entries that drop to it. Taking the infimum of THAT over every reduced index gives
  the infimum of every entry of the source: each entry drops to exactly one reduced index. A shape
  cast only renames indices along a bijection, so it keeps the infimum of all entries as well. A chain
  of reductions and shape casts that ends in an array with a single index therefore holds, at that
  index, the infimum of every entry of the array the chain began with — whatever the order in which
  the axes were reduced. The same holds with maximum, −∞ and supremum.

  For a reduction over ONE axis by the host the reduced entry is read directly as the infimum (or
  supremum) over that axis's coordinates.
-/
import Idealize.ShloMosaic.PureOps.Ideal.Laws

noncomputable section

namespace Cert.Extremum

open Idealize.ShloMosaic

variable {φ : FTy}

/-! ## Folds of `min` and `max` as infimum and supremum -/

/-- Folding `min` from +∞ over a finite set of indices gives the infimum over the set. -/
theorem fold_min_top {ι : Type} (S : Finset ι) (f : ι → EReal) : S.fold min (⊤ : EReal) f = ⨅ k ∈ S, f k :=
  eq_of_forall_le_iff fun z => by
    rw [Finset.le_fold_min]
    simp only [le_top, true_and, le_iInf_iff]

/-- Folding `max` from −∞ over a finite set of indices gives the supremum over the set. -/
theorem fold_max_bot {ι : Type} (S : Finset ι) (f : ι → EReal) : S.fold max (⊥ : EReal) f = ⨆ k ∈ S, f k :=
  eq_of_forall_ge_iff fun z => by
    rw [Finset.fold_max_le]
    simp only [bot_le, true_and, iSup_le_iff]

/-- Over every index of a finite type: the fold of `min` from +∞ is the infimum. -/
theorem fold_min_top_univ {ι : Type} [Fintype ι] (f : ι → EReal) : Finset.univ.fold min (⊤ : EReal) f = ⨅ k, f k := by
  rw [fold_min_top]; simp only [Finset.mem_univ, iInf_pos]

/-- Over every index of a finite type: the fold of `max` from −∞ is the supremum. -/
theorem fold_max_bot_univ {ι : Type} [Fintype ι] (f : ι → EReal) : Finset.univ.fold max (⊥ : EReal) f = ⨆ k, f k := by
  rw [fold_max_bot]; simp only [Finset.mem_univ, iSup_pos]

/-! ## An index type with one element -/

/-- Over an index type with at most one element the infimum is the value at any index. -/
theorem iInf_of_subsingleton {ι : Type} [Subsingleton ι] (g : ι → EReal) (j : ι) : (⨅ j', g j') = g j :=
  le_antisymm (iInf_le _ j) (le_iInf fun j' => by rw [Subsingleton.elim j' j])

/-- Over an index type with at most one element the supremum is the value at any index. -/
theorem iSup_of_subsingleton {ι : Type} [Subsingleton ι] (g : ι → EReal) (j : ι) : (⨆ j', g j') = g j :=
  le_antisymm (iSup_le fun j' => by rw [Subsingleton.elim j' j]) (le_iSup _ j)

/-! ## A shape cast keeps the extremes of all entries -/

/-- A shape cast reads its operand along a bijection of indices: the infimum of all entries is unchanged. -/
theorem iInf_shapeCast {s t : Shape} (v : s.Idx → EReal) (h : s.ShapeCasts t) :
    (⨅ j : t.Idx, shapeCast t v h j) = ⨅ i : s.Idx, v i :=
  (Shape.reshapeEquiv h).iInf_comp (g := v)

/-- And so is the supremum. -/
theorem iSup_shapeCast {s t : Shape} (v : s.Idx → EReal) (h : s.ShapeCasts t) :
    (⨆ j : t.Idx, shapeCast t v h j) = ⨆ i : s.Idx, v i :=
  (Shape.reshapeEquiv h).iSup_comp (g := v)

/-! ## A reduction, then the extreme over what is left -/

/-- A minimum-reduction from +∞ over any axes, followed by the infimum over the reduced indices, is the infimum of
    every entry of the source: the entry at `i` is among those folded at the index `i` drops to, and every entry folded
    at a reduced index is an entry of the source. -/
theorem iInf_multiReduction_min {s t : Shape} {axes : List (Fin s.rank)} (src : FVec Ideal s φ) (acc : BitVec φ.bits)
    (h : s.Reduces axes t) (hφ : FKind.Formats φ) (hacc : acc = FKind.minimumf.neutral φ hφ)
    (htop : (FloatOps.ofBits φ acc : Ideal φ) = (⊤ : EReal)) :
    (⨅ j : t.Idx, (multiReduction .minimumf axes t src acc h hφ hacc j : EReal)) = ⨅ i : s.Idx, (src i : EReal) := by
  have hf : ∀ j : t.Idx, (multiReduction .minimumf axes t src acc h hφ hacc j : EReal)
      = (Finset.univ.filter fun i => h.drop i = j).fold min (⊤ : EReal) src := fun j => by
    rw [multiReduction_minimumf_eq_fold, htop]; rfl
  apply le_antisymm
  · refine le_iInf fun i => (iInf_le _ (h.drop i)).trans ?_
    rw [hf]
    exact (Finset.fold_min_le _).2 (Or.inr ⟨i, Finset.mem_filter.2 ⟨Finset.mem_univ _, rfl⟩, le_rfl⟩)
  · refine le_iInf fun j => ?_
    rw [hf, Finset.le_fold_min]
    exact ⟨le_top, fun i _ => iInf_le _ i⟩

/-- A maximum-reduction from −∞ over any axes, followed by the supremum over the reduced indices, is the supremum of
    every entry of the source. -/
theorem iSup_multiReduction_max {s t : Shape} {axes : List (Fin s.rank)} (src : FVec Ideal s φ) (acc : BitVec φ.bits)
    (h : s.Reduces axes t) (hφ : FKind.Formats φ) (hacc : acc = FKind.maximumf.neutral φ hφ)
    (hbot : (FloatOps.ofBits φ acc : Ideal φ) = (⊥ : EReal)) :
    (⨆ j : t.Idx, (multiReduction .maximumf axes t src acc h hφ hacc j : EReal)) = ⨆ i : s.Idx, (src i : EReal) := by
  have hf : ∀ j : t.Idx, (multiReduction .maximumf axes t src acc h hφ hacc j : EReal)
      = (Finset.univ.filter fun i => h.drop i = j).fold max (⊥ : EReal) src := fun j => by
    rw [multiReduction_maximumf_eq_fold, hbot]; rfl
  apply le_antisymm
  · refine iSup_le fun j => ?_
    rw [hf, Finset.fold_max_le]
    exact ⟨bot_le, fun i _ => le_iSup _ i⟩
  · refine iSup_le fun i => le_trans ?_ (le_iSup _ (h.drop i))
    rw [hf]
    exact (Finset.le_fold_max _).2 (Or.inr ⟨i, Finset.mem_filter.2 ⟨Finset.mem_univ _, rfl⟩, le_rfl⟩)

/-! ## The host's reduction over one axis -/

/-- The host's reduce with a minimum body over ONE axis, from an initial value that is +∞: at a reduced index, the
    infimum of the operand over that axis's coordinates (the reduced index with the coordinate put back). -/
theorem hostReduce_min_single {s t u : Shape} {a : Fin s.rank} (x : s.Idx → Ideal φ) (init : u.Idx → Ideal φ)
    (h' : s.ReducesTo [a] t) (h : s.Reduces [a] t) (hu : 0 < u.numel) (hinit : init (Shape.Idx.first hu) = (⊤ : EReal))
    (j : t.Idx) :
    (Host.reduce (FloatOps.minimumf (F := Ideal) (φ := φ)) x init h' hu j : EReal) = ⨅ k : Fin (s.size a), (x (h.lift j k) : EReal) := by
  rw [Host.reduce_eq_fold_single (FloatOps.minimumf (F := Ideal) (φ := φ)) x init h' h hu j, hinit]
  exact fold_min_top_univ (fun k => x (h.lift j k))

/-- The same with a maximum body from −∞: the supremum over that axis's coordinates. -/
theorem hostReduce_max_single {s t u : Shape} {a : Fin s.rank} (x : s.Idx → Ideal φ) (init : u.Idx → Ideal φ)
    (h' : s.ReducesTo [a] t) (h : s.Reduces [a] t) (hu : 0 < u.numel) (hinit : init (Shape.Idx.first hu) = (⊥ : EReal))
    (j : t.Idx) :
    (Host.reduce (FloatOps.maximumf (F := Ideal) (φ := φ)) x init h' hu j : EReal) = ⨆ k : Fin (s.size a), (x (h.lift j k) : EReal) := by
  rw [Host.reduce_eq_fold_single (FloatOps.maximumf (F := Ideal) (φ := φ)) x init h' h hu j, hinit]
  exact fold_max_bot_univ (fun k => x (h.lift j k))

/-! ## The two infinite words -/

/-- The f32 word of +∞ is the top of the extended reals. -/
theorem ofBits_posInf_f32 : (FloatOps.ofBits (F := Ideal) .f32 0x7F800000#32 : EReal) = ⊤ := by
  show Ideal.ofBits .f32 0x7F800000#32 = ⊤
  simp [Ideal.ofBits, Ideal.ieee]

/-- The f32 word of −∞ is the bottom of the extended reals. -/
theorem ofBits_negInf_f32 : (FloatOps.ofBits (F := Ideal) .f32 0xFF800000#32 : EReal) = ⊥ := by
  show Ideal.ofBits .f32 0xFF800000#32 = ⊥
  simp [Ideal.ofBits, Ideal.ieee]

end Cert.Extremum

end
-- ==== Proof.RefValue.lean ====
/-
  The reference's per-cloud sums, read as mathematics.

  The reference forms, for clouds `x` and `y` of shape [4, 8192, 3], the array of squared norms of the points of `x`
  and of `y` (a sum over the coordinate axis started from zero), the array of inner products of every point of cloud `n`
  of `x` with every point of cloud `n` of `y`, and from them the whole table |x|² + |y|² − 2·⟨x, y⟩; then the minimum
  of each row of the table (a minimum-reduction over the last axis started from +∞, which is the infimum over that
  axis), its maximum with zero, and the sum over the rows started from zero. Entry by entry the table is `Cert.Dist.d2`,
  a row's minimum is `Cert.Nearest.rowMin` of that table, and the per-cloud sum is `Cert.Nearest.total`.
-/
import proofs.«176072_j11261404250604_1_alg».proof.Proof.Gen.ReferenceIdeal.Run
import proofs.«176072_j11261404250604_1_alg».proof.Proof.Gen.ReferenceIdeal.Read
import proofs.«176072_j11261404250604_1_alg».proof.Proof.Dist
import proofs.«176072_j11261404250604_1_alg».proof.Proof.Nearest
import proofs.«176072_j11261404250604_1_alg».proof.Proof.LibExtremum

noncomputable section

namespace Cert.ReferenceIdeal.RefValue

open Idealize.ShloMosaic Idealize.ShloMosaic.ValueIdx Cert.ReferenceIdeal Cert.ReferenceIdeal.Gen Cert.ReferenceIdeal.Read

/-- The squared norm of point `p` of cloud `n` of `x`: the sum over the three coordinates, started from zero. -/
private theorem sqnormX_apply (x : (⟨S4x8192x3, .f32⟩ : BufTy).Contents (Elt Ideal)) (n : Fin 4) (p : Fin 8192) :
    val_main_v1 (F := Ideal) x (ix2 n p) = ∑ d : Fin 3, x (ix3 n p d) * x (ix3 n p d) := by
  rw [val_main_v1_apply, val_main_cst_apply, Ideal.ofBits_def, Ideal.ofBits_zero_f32, zero_add]
  refine Finset.sum_congr rfl fun d _ => ?_
  have e : idx_main_v1 (ix2 n p) d = ix3 n p d :=
    funext fun a => Fin.ext (by match a with | ⟨0, _⟩ => rfl | ⟨1, _⟩ => rfl | ⟨2, _⟩ => rfl)
  rw [e, val_main_v0_apply, Ideal.mulf_def]

/-- The squared norm of point `q` of cloud `n` of `y`. -/
private theorem sqnormY_apply (y : (⟨S4x8192x3, .f32⟩ : BufTy).Contents (Elt Ideal)) (n : Fin 4) (q : Fin 8192) :
    val_main_v3 (F := Ideal) y (ix2 n q) = ∑ d : Fin 3, y (ix3 n q d) * y (ix3 n q d) := by
  rw [val_main_v3_apply, val_main_cst_0_apply, Ideal.ofBits_def, Ideal.ofBits_zero_f32, zero_add]
  refine Finset.sum_congr rfl fun d _ => ?_
  have e : idx_main_v3 (ix2 n q) d = ix3 n q d :=
    funext fun a => Fin.ext (by match a with | ⟨0, _⟩ => rfl | ⟨1, _⟩ => rfl | ⟨2, _⟩ => rfl)
  rw [e, val_main_v2_apply, Ideal.mulf_def]

/-- The inner product of point `p` of cloud `n` of `x` with point `q` of cloud `n` of `y`. -/
private theorem inner_apply (x y : (⟨S4x8192x3, .f32⟩ : BufTy).Contents (Elt Ideal)) (n : Fin 4) (p q : Fin 8192) :
    val_main_v4 (F := Ideal) x y (ix3 n p q) = ∑ d : Fin 3, x (ix3 n p d) * y (ix3 n q d) := by
  rw [val_main_v4_apply]
  refine Finset.sum_congr rfl fun d _ => ?_
  have el : lidx_main_v4 (ix3 n p q) d = ix3 n p d :=
    funext fun a => Fin.ext (by match a with | ⟨0, _⟩ => rfl | ⟨1, _⟩ => rfl | ⟨2, _⟩ => rfl)
  have er : ridx_main_v4 (ix3 n p q) d = ix3 n q d :=
    funext fun a => Fin.ext (by match a with | ⟨0, _⟩ => rfl | ⟨1, _⟩ => rfl | ⟨2, _⟩ => rfl)
  rw [el, er]

/-- The table's entry at `(n, p, q)` is the squared distance: the two squared norms, each spread along the other
    cloud's point axis, added, less the factor 2.0 times the inner product. -/
private theorem d2_apply (x y : (⟨S4x8192x3, .f32⟩ : BufTy).Contents (Elt Ideal)) (n : Fin 4) (p q : Fin 8192) :
    val_main_v12 (F := Ideal) x y (ix3 n p q) = Cert.Dist.d2 x y n p q := by
  have e5 : idx_main_v5 (idx_main_v7 (ix3 n p q)) = ix2 n p :=
    funext fun a => Fin.ext (by match a with | ⟨0, _⟩ => rfl | ⟨1, _⟩ => rfl)
  have e6 : idx_main_v6 (idx_main_v8 (ix3 n p q)) = ix2 n q :=
    funext fun a => Fin.ext (by match a with | ⟨0, _⟩ => rfl | ⟨1, _⟩ => rfl)
  rw [val_main_v12_apply, val_main_v9_apply, val_main_v11_apply, val_main_v7_apply, val_main_v8_apply,
    val_main_v5_apply, val_main_v6_apply, val_main_v10_apply, val_main_cst_1_apply, e5, e6,
    sqnormX_apply, sqnormY_apply, inner_apply, Ideal.subf_def, Ideal.addf_def, Ideal.mulf_def, Ideal.ofBits_def]
  rfl

/-- The minimum-reduction over the last axis, started from +∞, at `(n, p)`: the least entry of row `p` of the table
    of cloud `n`. -/
private theorem rowMin_apply (x y : (⟨S4x8192x3, .f32⟩ : BufTy).Contents (Elt Ideal)) (n : Fin 4) (p : Fin 8192) :
    val_main_v13 (F := Ideal) x y (ix2 n p) = Cert.Nearest.rowMin (Cert.Dist.table x y n) p.val := by
  have hR : S4x8192x8192.Reduces [2] S4x8192 := by decide
  unfold val_main_v13
  rw [Cert.Extremum.hostReduce_min_single _ _ reducesTo_S4x8192x8192_S4x8192_d2 hR h_S_
    (by rw [val_main_cst_2_apply]; exact Cert.Extremum.ofBits_posInf_f32) (ix2 n p)]
  unfold Cert.Nearest.rowMin
  refine iInf_congr fun (q : Fin 8192) => ?_
  have e : hR.lift (ix2 n p) q = ix3 n p q :=
    funext fun a => Fin.ext (by match a with | ⟨0, _⟩ => rfl | ⟨1, _⟩ => rfl | ⟨2, _⟩ => rfl)
  rw [e, d2_apply, Cert.Dist.table_eq]

/-- The per-cloud sum: over the 8192 rows of the table of cloud `n`, the row's minimum clamped at zero from below. -/
theorem perCloud_apply (x y : (⟨S4x8192x3, .f32⟩ : BufTy).Contents (Elt Ideal)) (n : Fin 4) :
    val_main_v16 (F := Ideal) x y (ix1 n) = Cert.Nearest.total (Cert.Dist.table x y n) := by
  rw [val_main_v16_apply, val_main_cst_4_apply, Ideal.ofBits_def, Ideal.ofBits_zero_f32, zero_add]
  unfold Cert.Nearest.total
  refine Finset.sum_congr rfl fun p _ => ?_
  have e : idx_main_v16 (ix1 n) p = ix2 n p :=
    funext fun a => Fin.ext (by match a with | ⟨0, _⟩ => rfl | ⟨1, _⟩ => rfl)
  rw [e, val_main_v15_apply, val_main_v14_apply, val_main_cst_3_apply, rowMin_apply, Ideal.maximumf_def,
    Ideal.ofBits_def, Ideal.ofBits_zero_f32]

/-- The reference's result: the per-cloud sums, summed from zero and divided by the word of 4.0. -/
theorem result_eq (x y : (⟨S4x8192x3, .f32⟩ : BufTy).Contents (Elt Ideal)) :
    val_main_v18 (F := Ideal) x y
      = Host.divf (F := Ideal) (Host.reduceAdd (F := Ideal) (fun i : S4.Idx => Cert.Nearest.total (Cert.Dist.table x y (i 0)))
          (constant (F := Ideal) S_ .f32 0x00000000#32) reducesTo_S4_S_d0 h_S_) (constant (F := Ideal) S_ .f32 0x40800000#32) := by
  have e : val_main_v16 (F := Ideal) x y = fun i : S4.Idx => Cert.Nearest.total (Cert.Dist.table x y (i 0)) :=
    funext fun i => by
      obtain ⟨n, rfl⟩ : ∃ n : Fin 4, i = ix1 n := ⟨i 0, eq_ix1 i⟩
      exact perCloud_apply x y n
  unfold val_main_v18 val_main_v17
  rw [e]
  rfl

end Cert.ReferenceIdeal.RefValue

end
-- ==== Proof.Pieces.lean ====
/-
  What each control case of the kernel body leaves behind, as values.

  The body carries two scratch buffers from grid point to grid point: the running minima (one per query point of the
  current tile of 1024) and the running sums (one per cloud). Every store of the body covers its whole buffer, so a
  buffer ends a point holding the payload of the last store into it, and a load that follows a store reads that store's
  payload. Hence: at the first key tile the minima are the update of the +∞ splat, elsewhere the update of what the point
  before left; at the last key tile the sums are what the point before left plus the clamped minima just updated, summed;
  at the very first point the sums are the zero splat; and at the very last point the output block is the sums just
  updated. Below `x0`, `x1` are the query and key blocks, `xs0` the minima and `xs1` the sums the point before left.
-/
import proofs.«176072_j11261404250604_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (a2 : Memref sig .tc .vmem S4x1024x3 .f32) (h2 : a2.IsWhole) (a3 : Memref sig .tc .vmem S4x512x3 .f32) (h3 : a3.IsWhole)
  (a4 : Memref sig .tc .vmem S4x1 .f32) (h4 : a4.IsWhole) (a5 : Memref sig .tc .vmem S4x1024 .f32) (h5 : a5.IsWhole)
  (a6 : Memref sig .tc .vmem S4x1 .f32) (h6 : a6.IsWhole)
  (x0 : Vec F S4x1024x3 .f32) (x1 : Vec F S4x512x3 .f32) (xs0 : Vec F S4x1024 .f32) (xs1 : Vec F S4x1 .f32)

/-! ## The first point: both scratch buffers are reset, then the minima updated -/

theorem sout_A_0 (hc0 : cond0_0 i) (hc1 : cond0_1 i) (hc2 : ¬cond0_2 i) (hc3 : ¬cond0_3 i) :
    sout0_A_0 c i a2 h2 a3 h3 a4 h4 a5 h5 a6 h6 hc0 hc1 hc2 hc3 x0 x1 = k0_pay4 x0 x1 (k0_pay2 (F := F)) := by
  unfold sout0_A_0
  rw [View.read_writes_eq_canon _ _ _ (scover0_A_0 c i a2 h2 a3 h3 a4 h4 a5 h5 a6 h6 hc0 hc1 hc2 hc3 x0 x1)]
  unfold kernelRun0_A
  dsimp only
  sl_unfold_words
  rw [View.canon_cons_unit_zero (S := S4x1024) hz2]
  simp only [View.readAt_eq_ld, h2.read_unread, h3.read_unread, View.ld_unit_zero (S := S4x1024x3) hz3,
    View.ld_unit_zero (S := S4x512x3) hz3, View.readCov_unit_zero (S := S4x1024) _ hz2]

theorem sout_A_1 (hc0 : cond0_0 i) (hc1 : cond0_1 i) (hc2 : ¬cond0_2 i) (hc3 : ¬cond0_3 i) :
    sout0_A_1 c i a2 h2 a3 h3 a4 h4 a5 h5 a6 h6 hc0 hc1 hc2 hc3 x0 x1 = k0_pay3 (F := F) := by
  unfold sout0_A_1
  rw [View.read_writes_eq_canon _ _ _ (scover0_A_1 c i a2 h2 a3 h3 a4 h4 a5 h5 a6 h6 hc0 hc1 hc2 hc3 x0 x1)]
  unfold kernelRun0_A
  dsimp only
  sl_unfold_words
  rw [View.canon_unit_zero hz2]

/-! ## A point in the middle of a sweep over the key tiles: the minima are updated, the sums kept -/

theorem sout_B_0 (hc0 : ¬cond0_0 i) (hc1 : ¬cond0_1 i) (hc2 : ¬cond0_2 i) (hc3 : ¬cond0_3 i) :
    sout0_B_0 c i a2 h2 a3 h3 a4 h4 a5 h5 a6 h6 hc0 hc1 hc2 hc3 x0 x1 xs0 xs1 = k0_pay4 x0 x1 xs0 := by
  unfold sout0_B_0
  rw [View.read_writes_eq_canon _ _ _ (scover0_B_0 c i a2 h2 a3 h3 a4 h4 a5 h5 a6 h6 hc0 hc1 hc2 hc3 x0 x1 xs0 xs1)]
  unfold kernelRun0_B
  dsimp only
  sl_unfold_words
  rw [View.canon_unit_zero hz2]
  simp only [View.readAt_eq_ld, h2.read_unread, h3.read_unread, h5.read_unread, View.ld_unit_zero (S := S4x1024x3) hz3,
    View.ld_unit_zero (S := S4x512x3) hz3, View.ld_unit_zero (S := S4x1024) hz2]

/-! ## The last key tile of a sweep that is not the last: the minima are updated and their clamped sum joins the sums -/

theorem sout_C_0 (hc0 : ¬cond0_0 i) (hc1 : ¬cond0_1 i) (hc2 : cond0_2 i) (hc3 : ¬cond0_3 i) :
    sout0_C_0 c i a2 h2 a3 h3 a4 h4 a5 h5 a6 h6 hc0 hc1 hc2 hc3 x0 x1 xs0 xs1 = k0_pay4 x0 x1 xs0 := by
  unfold sout0_C_0
  rw [View.read_writes_eq_canon _ _ _ (scover0_C_0 c i a2 h2 a3 h3 a4 h4 a5 h5 a6 h6 hc0 hc1 hc2 hc3 x0 x1 xs0 xs1)]
  unfold kernelRun0_C
  dsimp only
  sl_unfold_words
  rw [View.canon_unit_zero hz2]
  simp only [View.readAt_eq_ld, h2.read_unread, h3.read_unread, h5.read_unread, View.ld_unit_zero (S := S4x1024x3) hz3,
    View.ld_unit_zero (S := S4x512x3) hz3, View.ld_unit_zero (S := S4x1024) hz2]

theorem sout_C_1 (hc0 : ¬cond0_0 i) (hc1 : ¬cond0_1 i) (hc2 : cond0_2 i) (hc3 : ¬cond0_3 i) :
    sout0_C_1 c i a2 h2 a3 h3 a4 h4 a5 h5 a6 h6 hc0 hc1 hc2 hc3 x0 x1 xs0 xs1 = k0_pay1 (k0_pay4 x0 x1 xs0) xs1 := by
  unfold sout0_C_1
  rw [View.read_writes_eq_canon _ _ _ (scover0_C_1 c i a2 h2 a3 h3 a4 h4 a5 h5 a6 h6 hc0 hc1 hc2 hc3 x0 x1 xs0 xs1)]
  unfold kernelRun0_C
  dsimp only
  sl_unfold_words
  rw [View.canon_unit_zero hz2]
  simp only [View.readAt_eq_ld, h2.read_unread, h3.read_unread, h5.read_unread, h6.read_unread,
    View.ld_unit_zero (S := S4x1024x3) hz3, View.ld_unit_zero (S := S4x512x3) hz3, View.ld_unit_zero (S := S4x1024) hz2,
    View.ld_unit_zero (S := S4x1) hz2, View.readCov_unit_zero (S := S4x1024) _ hz2]

/-! ## The first key tile of a later sweep: the minima are reset and updated, the sums kept -/

theorem sout_D_0 (hc0 : cond0_0 i) (hc1 : ¬cond0_1 i) (hc2 : ¬cond0_2 i) (hc3 : ¬cond0_3 i) :
    sout0_D_0 c i a2 h2 a3 h3 a4 h4 a5 h5 a6 h6 hc0 hc1 hc2 hc3 x0 x1 xs1 = k0_pay4 x0 x1 (k0_pay2 (F := F)) := by
  unfold sout0_D_0
  rw [View.read_writes_eq_canon _ _ _ (scover0_D_0 c i a2 h2 a3 h3 a4 h4 a5 h5 a6 h6 hc0 hc1 hc2 hc3 x0 x1 xs1)]
  unfold kernelRun0_D
  dsimp only
  sl_unfold_words
  rw [View.canon_cons_unit_zero (S := S4x1024) hz2]
  simp only [View.readAt_eq_ld, h2.read_unread, h3.read_unread, View.ld_unit_zero (S := S4x1024x3) hz3,
    View.ld_unit_zero (S := S4x512x3) hz3, View.readCov_unit_zero (S := S4x1024) _ hz2]

/-! ## The very last point: as at the end of any sweep, and the output block takes the sums -/

theorem sout_E_0 (hc0 : ¬cond0_0 i) (hc1 : ¬cond0_1 i) (hc2 : cond0_2 i) (hc3 : cond0_3 i) :
    sout0_E_0 c i a2 h2 a3 h3 a4 h4 a5 h5 a6 h6 hc0 hc1 hc2 hc3 x0 x1 xs0 xs1 = k0_pay4 x0 x1 xs0 := by
  unfold sout0_E_0
  rw [View.read_writes_eq_canon _ _ _ (scover0_E_0 c i a2 h2 a3 h3 a4 h4 a5 h5 a6 h6 hc0 hc1 hc2 hc3 x0 x1 xs0 xs1)]
  unfold kernelRun0_E
  dsimp only
  sl_unfold_words
  rw [View.canon_unit_zero hz2]
  simp only [View.readAt_eq_ld, h2.read_unread, h3.read_unread, h5.read_unread, View.ld_unit_zero (S := S4x1024x3) hz3,
    View.ld_unit_zero (S := S4x512x3) hz3, View.ld_unit_zero (S := S4x1024) hz2]

theorem sout_E_1 (hc0 : ¬cond0_0 i) (hc1 : ¬cond0_1 i) (hc2 : cond0_2 i) (hc3 : cond0_3 i) :
    sout0_E_1 c i a2 h2 a3 h3 a4 h4 a5 h5 a6 h6 hc0 hc1 hc2 hc3 x0 x1 xs0 xs1 = k0_pay1 (k0_pay4 x0 x1 xs0) xs1 := by
  unfold sout0_E_1
  rw [View.read_writes_eq_canon _ _ _ (scover0_E_1 c i a2 h2 a3 h3 a4 h4 a5 h5 a6 h6 hc0 hc1 hc2 hc3 x0 x1 xs0 xs1)]
  unfold kernelRun0_E
  dsimp only
  sl_unfold_words
  rw [View.canon_unit_zero hz2]
  simp only [View.readAt_eq_ld, h2.read_unread, h3.read_unread, h5.read_unread, h6.read_unread,
    View.ld_unit_zero (S := S4x1024x3) hz3, View.ld_unit_zero (S := S4x512x3) hz3, View.ld_unit_zero (S := S4x1024) hz2,
    View.ld_unit_zero (S := S4x1) hz2, View.readCov_unit_zero (S := S4x1024) _ hz2]

theorem out_E_2 (hc0 : ¬cond0_0 i) (hc1 : ¬cond0_1 i) (hc2 : cond0_2 i) (hc3 : cond0_3 i) :
    out0_E_2 c i a2 h2 a3 h3 a4 h4 a5 h5 a6 h6 hc0 hc1 hc2 hc3 x0 x1 xs0 xs1 = k0_pay1 (k0_pay4 x0 x1 xs0) xs1 := by
  unfold out0_E_2
  rw [View.read_writes_eq_canon _ _ _ (cover0_E_2 c i a2 h2 a3 h3 a4 h4 a5 h5 a6 h6 hc0 hc1 hc2 hc3 x0 x1 xs0 xs1)]
  unfold kernelRun0_E
  dsimp only
  sl_unfold_words
  rw [View.canon_unit_zero hz2]
  simp only [View.readAt_eq_ld, h2.read_unread, h3.read_unread, h5.read_unread, h6.read_unread,
    View.ld_unit_zero (S := S4x1024x3) hz3, View.ld_unit_zero (S := S4x512x3) hz3, View.ld_unit_zero (S := S4x1024) hz2,
    View.ld_unit_zero (S := S4x1) hz2, View.readCov_unit_zero (S := S4x1024) _ hz2, View.readCov_unit_zero (S := S4x1) _ hz2]

end Cert.KernelIdeal.Pieces

end
-- ==== Proof.LibKeepdims3.lean ====
/-
  The keep-dimension forms of a reduction over the last axis of a rank-3 array, read at an index: an [a, b] array cast
  to the column form [a, b, 1], and an [a, b, 1] array broadcast along the last axis to [a, b, c].
-/
import Idealize.ShloMosaic.Lib.Pipeline.Value
import Idealize.ShloMosaic.Lib.ValueLayout
import Idealize.ShloMosaic.Lib.ValueIdx

noncomputable section

namespace Cert.Keepdims3

open Idealize.ShloMosaic Idealize.ShloMosaic.ValueIdx

/-- An [a, b] array cast to [a, b, 1] reads, at (i, j, u), the operand at (i, j), whatever the unit coordinate u. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, k), the operand's one entry of (i, j). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.Keepdims3

end
-- ==== Proof.Payload.lean ====
/-
  The four arrays the kernel stores, read at an index, at the ideal values.

  The running-minimum update of one tile: for query point p of cloud n, the kernel forms |x|² and |y|² by summing squares
  over the coordinate axis, the products ⟨x, y⟩ by one batched contraction over the coordinate axis, combines them into
  (|x|² + |y|²) − 2·⟨x, y⟩ over the tile's 1024 × 512 pairs, takes the minimum over the 512 key points starting from +∞,
  and then the minimum with the value kept so far. Read at (n, p) this is the minimum of the value kept so far and the
  infimum over the tile's key points of the squared distance.

  The running-sum update: the kept minima are clamped below at 0 and summed over the 1024 query points of the tile, and
  the sum is added to the value kept so far.

  The two initial values are the splats of +∞ and of 0.
-/
import proofs.«176072_j11261404250604_1_alg».proof.Proof.Gen.KernelIdeal.Skeleton
import proofs.«176072_j11261404250604_1_alg».proof.Proof.Dist
import proofs.«176072_j11261404250604_1_alg».proof.Proof.LibExtremum
import proofs.«176072_j11261404250604_1_alg».proof.Proof.LibKeepdims3
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.KernelIdeal.Payload

open Idealize.ShloMosaic Idealize.ShloMosaic.ValueIdx Cert.KernelIdeal Cert.KernelIdeal.Gen

/-! ## Layout operations read at an index -/

/-- An [a] vector cast to the column [a, 1] reads, at (i, u), the vector at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1, c] array broadcast to [a, b, c] reads, at (i, j, k), the operand's one entry of (i, k). -/
private theorem broadcastTo_a1c_abc_apply {α : Type} {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-! ## The sums over the coordinate axis -/

/-- The sum of squares over the three coordinates of point p of cloud n. -/
private theorem sumSq_apply {P : ℕ} (x : FVec Ideal ⟨3, ![4, P, 3]⟩ .f32)
    (h : Shape.Reduces ⟨3, ![4, P, 3]⟩ [2] ⟨2, ![4, P]⟩) (hφ : FKind.Formats .f32)
    (hacc : (0x00000000#32 : BitVec 32) = FKind.add.neutral .f32 hφ) (n : Fin 4) (p : Fin P) :
    multiReduction (F := Ideal) .add [2] ⟨2, ![4, P]⟩ (mulf x x) 0x00000000#32 h hφ hacc (ix2 n p)
      = ∑ d : Fin 3, x (ix3 n p d) * x (ix3 n p d) := by
  refine (Ideal.multiReduction_add_single (mulf x x) 0x00000000#32 h hφ hacc (ix2 n p)).trans ?_
  refine Finset.sum_congr rfl fun d _ => ?_
  have e : h.lift (ix2 n p) d = ix3 n p d :=
    funext fun a => Fin.ext (by match a with | ⟨0, _⟩ => rfl | ⟨1, _⟩ => rfl | ⟨2, _⟩ => rfl)
  rw [e]
  rfl

/-! ## The batched contraction over the coordinate axis

At output index i and contraction index q the left operand is read at (i's cloud, i's query point, q's coordinate) and the
right operand at (i's cloud, i's key point, q's coordinate): one lemma per operand axis. -/

private theorem dot_lhs_0 (i : S4x1024x512.Idx) (q : dot_S4x1024x3_S4x512x3_S4x1024x512_2_2_1_1_0_0.contr.Idx) :
    (dot_S4x1024x3_S4x512x3_S4x1024x512_2_2_1_1_0_0.lhsIdx i q 0).val = (i 0).val := by
  unfold DotDims.lhsIdx
  rw [dif_pos (show (0 : Fin S4x1024x3.rank) ∈ dot_S4x1024x3_S4x512x3_S4x1024x512_2_2_1_1_0_0.lhsBatch by decide)]
  rfl
private theorem dot_lhs_1 (i : S4x1024x512.Idx) (q : dot_S4x1024x3_S4x512x3_S4x1024x512_2_2_1_1_0_0.contr.Idx) :
    (dot_S4x1024x3_S4x512x3_S4x1024x512_2_2_1_1_0_0.lhsIdx i q 1).val = (i 1).val := by
  unfold DotDims.lhsIdx
  rw [dif_neg (show ¬(1 : Fin S4x1024x3.rank) ∈ dot_S4x1024x3_S4x512x3_S4x1024x512_2_2_1_1_0_0.lhsBatch by decide), dif_pos (show (1 : Fin S4x1024x3.rank) ∈ dot_S4x1024x3_S4x512x3_S4x1024x512_2_2_1_1_0_0.lhsNonContracting by decide)]
  rfl
private theorem dot_lhs_2 (i : S4x1024x512.Idx) (q : dot_S4x1024x3_S4x512x3_S4x1024x512_2_2_1_1_0_0.contr.Idx) :
    (dot_S4x1024x3_S4x512x3_S4x1024x512_2_2_1_1_0_0.lhsIdx i q 2).val = (q ⟨0, by decide⟩).val :=
  dot_S4x1024x3_S4x512x3_S4x1024x512_2_2_1_1_0_0.lhsIdx_val_of_single rfl i q
private theorem dot_rhs_0 (i : S4x1024x512.Idx) (q : dot_S4x1024x3_S4x512x3_S4x1024x512_2_2_1_1_0_0.contr.Idx) :
    (dot_S4x1024x3_S4x512x3_S4x1024x512_2_2_1_1_0_0.rhsIdx i q 0).val = (i 0).val := by
  unfold DotDims.rhsIdx
  rw [dif_pos (show (0 : Fin S4x512x3.rank) ∈ dot_S4x1024x3_S4x512x3_S4x1024x512_2_2_1_1_0_0.rhsBatch by decide)]
  rfl
private theorem dot_rhs_1 (i : S4x1024x512.Idx) (q : dot_S4x1024x3_S4x512x3_S4x1024x512_2_2_1_1_0_0.contr.Idx) :
    (dot_S4x1024x3_S4x512x3_S4x1024x512_2_2_1_1_0_0.rhsIdx i q 1).val = (i 2).val := by
  unfold DotDims.rhsIdx
  rw [dif_neg (show ¬(1 : Fin S4x512x3.rank) ∈ dot_S4x1024x3_S4x512x3_S4x1024x512_2_2_1_1_0_0.rhsBatch by decide), dif_pos (show (1 : Fin S4x512x3.rank) ∈ dot_S4x1024x3_S4x512x3_S4x1024x512_2_2_1_1_0_0.rhsNonContracting by decide)]
  rfl
private theorem dot_rhs_2 (i : S4x1024x512.Idx) (q : dot_S4x1024x3_S4x512x3_S4x1024x512_2_2_1_1_0_0.contr.Idx) :
    (dot_S4x1024x3_S4x512x3_S4x1024x512_2_2_1_1_0_0.rhsIdx i q 2).val = (q ⟨0, by decide⟩).val :=
  dot_S4x1024x3_S4x512x3_S4x1024x512_2_2_1_1_0_0.rhsIdx_val_of_single rfl i q

/-- The contraction into a zero accumulator, at (n, p, k): the inner product of point p of x and point k of y. -/
private theorem inner_apply (X : FVec Ideal S4x1024x3 .f32) (Y : FVec Ideal S4x512x3 .f32) (n : Fin 4) (p : Fin 1024) (k : Fin 512) :
    matmul dot_S4x1024x3_S4x512x3_S4x1024x512_2_2_1_1_0_0 none X Y (constant (F := Ideal) S4x1024x512 .f32 0x00000000#32) (ix3 n p k)
      = ∑ d : Fin 3, X (ix3 n p d) * Y (ix3 n k d) := by
  simp only [matmul]
  rw [Ideal.matmul_constant_zero_apply, ← Equiv.sum_comp (ValueIdx.contrEquiv1 dot_S4x1024x3_S4x512x3_S4x1024x512_2_2_1_1_0_0 3 rfl rfl).symm]
  refine Finset.sum_congr rfl fun d _ => ?_
  have hd := ValueIdx.contrEquiv1_symm_val dot_S4x1024x3_S4x512x3_S4x1024x512_2_2_1_1_0_0 3 rfl rfl d
  have el : dot_S4x1024x3_S4x512x3_S4x1024x512_2_2_1_1_0_0.lhsIdx (ix3 n p k) ((ValueIdx.contrEquiv1 dot_S4x1024x3_S4x512x3_S4x1024x512_2_2_1_1_0_0 3 rfl rfl).symm d) = ix3 n p d := funext fun a => Fin.ext (by
    match a with
    | ⟨0, _⟩ => exact dot_lhs_0 _ _
    | ⟨1, _⟩ => exact dot_lhs_1 _ _
    | ⟨2, _⟩ => exact (dot_lhs_2 _ _).trans hd)
  have er : dot_S4x1024x3_S4x512x3_S4x1024x512_2_2_1_1_0_0.rhsIdx (ix3 n p k) ((ValueIdx.contrEquiv1 dot_S4x1024x3_S4x512x3_S4x1024x512_2_2_1_1_0_0 3 rfl rfl).symm d) = ix3 n k d := funext fun a => Fin.ext (by
    match a with
    | ⟨0, _⟩ => exact dot_rhs_0 _ _
    | ⟨1, _⟩ => exact dot_rhs_1 _ _
    | ⟨2, _⟩ => exact (dot_rhs_2 _ _).trans hd)
  rw [el, er]

/-! ## The minimum over the key points of the tile -/

/-- A minimum over the last axis started from +∞, at (n, p): the infimum over the last coordinate. -/
private theorem minLast_apply (v : FVec Ideal S4x1024x512 .f32) (h : S4x1024x512.Reduces [2] S4x1024) (hφ : FKind.Formats .f32)
    (hacc : (0x7F800000#32 : BitVec 32) = FKind.minimumf.neutral .f32 hφ) (n : Fin 4) (p : Fin 1024) :
    multiReduction (F := Ideal) .minimumf [2] S4x1024 v 0x7F800000#32 h hφ hacc (ix2 n p) = ⨅ k : Fin 512, v (ix3 n p k) := by
  refine (multiReduction_minimumf_eq_fold v _ h hφ hacc (ix2 n p)).trans ?_
  refine (h.fold_filter_drop_single _ _ v (ix2 n p)).trans ?_
  rw [Cert.Extremum.ofBits_posInf_f32]
  refine (Cert.Extremum.fold_min_top_univ _).trans ?_
  refine iInf_congr fun k => ?_
  exact congrArg v (funext fun a => Fin.ext (by match a with | ⟨0, _⟩ => rfl | ⟨1, _⟩ => rfl | ⟨2, _⟩ => rfl))

/-- The squared distances of the tile, as the kernel combines the three sums, at (n, p, k). -/
private theorem tile_apply (X : FVec Ideal S4x1024x3 .f32) (Y : FVec Ideal S4x512x3 .f32)
    (hx : S4x1024x3.Reduces [2] S4x1024) (hy : S4x512x3.Reduces [2] S4x512) (hφ : FKind.Formats .f32)
    (hacc : (0x00000000#32 : BitVec 32) = FKind.add.neutral .f32 hφ)
    (cx : S4x1024.ShapeCasts S4x1024x1) (cy : S4x512.ShapeCasts S4x512x1) (ty : S4x512x1.Transposes [0, 2, 1] S4x1x512)
    (bx : S4x1024x1.Broadcasts S4x1024x512) (by' : S4x1x512.Broadcasts S4x1024x512) (n : Fin 4) (p : Fin 1024) (k : Fin 512) :
    subf
        (addf
          (broadcastTo S4x1024x512 (shapeCast S4x1024x1 (multiReduction (F := Ideal) .add [2] S4x1024 (mulf X X) 0x00000000#32 hx hφ hacc) cx) bx)
          (broadcastTo S4x1024x512
            (transpose S4x1x512 [0, 2, 1] (shapeCast S4x512x1 (multiReduction (F := Ideal) .add [2] S4x512 (mulf Y Y) 0x00000000#32 hy hφ hacc) cy) ty) by'))
        (mulf (broadcast S4x1024x512 (FloatOps.ofBits (F := Ideal) .f32 0x40000000#32))
          (matmul dot_S4x1024x3_S4x512x3_S4x1024x512_2_2_1_1_0_0 none X Y (constant (F := Ideal) S4x1024x512 .f32 0x00000000#32)))
        (ix3 n p k)
      = Cert.Dist.d2 X Y n p k := by
  rw [subf_apply, addf_apply, mulf_apply, broadcast_apply]
  unfold Cert.Dist.d2
  refine congrArg₂ (· - ·) (congrArg₂ (· + ·) ?_ ?_) (congrArg₂ (· * ·) rfl ?_)
  · exact (Cert.Keepdims3.broadcastTo_ab1_abc_apply _ _ n p k).trans
      ((Cert.Keepdims3.shapeCast_ab_ab1_apply _ _ n p 0).trans (sumSq_apply X hx hφ hacc n p))
  · exact (broadcastTo_a1c_abc_apply _ _ n p k).trans
      ((transpose_ix3_021_apply _ _ n 0 k).trans
        ((Cert.Keepdims3.shapeCast_ab_ab1_apply _ _ n k 0).trans (sumSq_apply Y hy hφ hacc n k)))
  · exact inner_apply X Y n p k

/-! ## The sum over the query points of the tile -/

/-- A sum over the last axis of a [4, 1024] array, at n: the sum over the last coordinate. -/
private theorem sumLast_apply (v : FVec Ideal S4x1024 .f32) (h : S4x1024.Reduces [1] S4) (hφ : FKind.Formats .f32)
    (hacc : (0x00000000#32 : BitVec 32) = FKind.add.neutral .f32 hφ) (n : Fin 4) :
    multiReduction (F := Ideal) .add [1] S4 v 0x00000000#32 h hφ hacc (ix1 n) = ∑ p : Fin 1024, v (ix2 n p) := by
  refine (Ideal.multiReduction_add_single v 0x00000000#32 h hφ hacc (ix1 n)).trans ?_
  refine Finset.sum_congr rfl fun p _ => ?_
  exact congrArg v (funext fun a => Fin.ext (by match a with | ⟨0, _⟩ => rfl | ⟨1, _⟩ => rfl))

theorem pay4_apply (X : Vec Ideal S4x1024x3 .f32) (Y : Vec Ideal S4x512x3 .f32) (prev : Vec Ideal S4x1024 .f32)
    (n : Fin 4) (p : Fin 1024) :
    k0_pay4 (F := Ideal) X Y prev (ix2 n p) = min (prev (ix2 n p)) (⨅ k : Fin 512, Cert.Dist.d2 X Y n p k) := by
  unfold k0_pay4
  dsimp only
  refine (congrFun (shapeCast_self _ _) (ix2 n p)).trans ?_
  refine congrArg (min (prev (ix2 n p))) ?_
  refine (minLast_apply _ _ _ _ n p).trans ?_
  exact iInf_congr fun k => tile_apply X Y _ _ _ _ _ _ _ _ _ n p k

theorem pay1_apply (mb : Vec Ideal S4x1024 .f32) (acc : Vec Ideal S4x1 .f32) (n : Fin 4) (u : Fin 1) :
    k0_pay1 (F := Ideal) mb acc (ix2 n u) = acc (ix2 n u) + ∑ p : Fin 1024, max (mb (ix2 n p)) 0 := by
  unfold k0_pay1
  dsimp only
  refine (congrFun (shapeCast_self _ _) (ix2 n u)).trans ?_
  refine congrArg (acc (ix2 n u) + ·) ?_
  refine (shapeCast_a_a1_apply _ _ n u).trans ?_
  refine (sumLast_apply _ _ _ _ n).trans ?_
  refine Finset.sum_congr rfl fun p _ => ?_
  show max (mb (ix2 n p)) (Ideal.ofBits .f32 0x00000000#32) = _
  rw [Ideal.ofBits_zero_f32]

theorem pay2_apply (i : S4x1024.Idx) : k0_pay2 (F := Ideal) i = (⊤ : EReal) := by
  unfold k0_pay2
  refine (congrFun (shapeCast_self _ _) i).trans ?_
  exact Cert.Extremum.ofBits_posInf_f32

theorem pay3_apply (i : S4x1.Idx) : k0_pay3 (F := Ideal) i = (0 : EReal) := by
  unfold k0_pay3
  refine (congrFun (shapeCast_self _ _) i).trans ?_
  exact Ideal.ofBits_zero_f32

end Cert.KernelIdeal.Payload

end
-- ==== Proof.Blocks.lean ====
/-
  The blocks the body loads, as rows of the argument arrays.

  The grid has 8 by 16 points in row-major order: point `t` has first coordinate `t / 16` and second coordinate `t % 16`.
  The query window follows the first coordinate along the point axis in blocks of 1024, the key window the second in
  blocks of 512, and both stay at the origin on the cloud and coordinate axes. So at point `t` the query block holds
  points `1024 (t / 16)` to `1024 (t / 16) + 1023` of every cloud of the first argument, and the key block points
  `512 (t % 16)` to `512 (t % 16) + 511` of every cloud of the second.
-/
import proofs.«176072_j11261404250604_1_alg».proof.Proof.Gen.KernelIdeal.Frame
import proofs.«176072_j11261404250604_1_alg».proof.Proof.Dist

noncomputable section

namespace Cert.KernelIdeal.Blocks

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The two cloud arrays as the run finds them. -/
abbrev xarr (c : Dev nD) : (⟨3, ![4, 8192, 3]⟩ : Shape).Idx → EReal := m ((c : Thread nD τ).loc main_arg0)
abbrev yarr (c : Dev nD) : (⟨3, ![4, 8192, 3]⟩ : Shape).Idx → EReal := m ((c : Thread nD τ).loc main_arg1)

/-- The query block and the key block the body loads at grid point `t`. -/
abbrev qblk (c : Dev nD) (t : Fin cfg0.N) : (⟨3, ![4, 1024, 3]⟩ : Shape).Idx → EReal := iblk m c 0 t
abbrev kblk (c : Dev nD) (t : Fin cfg0.N) : (⟨3, ![4, 512, 3]⟩ : Shape).Idx → EReal := iblk m c 1 t

/-- Where the query window sits at grid point `t`: the grid is 8 by 16, row-major, and the window follows the first
    grid coordinate along the point axis and stays at the origin on the other two. This holds at each of the 128 grid points. -/
private theorem index0 : ∀ t : Fin cfg0.N,
    win0_0.index t 0 = 0 ∧ win0_0.index t 1 = t.val / 16 ∧ win0_0.index t 2 = 0 :=
  (by decide +kernel : ∀ t : Fin grid0.N, win0_0.index t 0 = 0 ∧ win0_0.index t 1 = t.val / 16 ∧ win0_0.index t 2 = 0)

/-- Where the key window sits at grid point `t`: it follows the second grid coordinate along the point axis. -/
private theorem index1 : ∀ t : Fin cfg0.N,
    win0_1.index t 0 = 0 ∧ win0_1.index t 1 = t.val % 16 ∧ win0_1.index t 2 = 0 :=
  (by decide +kernel : ∀ t : Fin grid0.N, win0_1.index t 0 = 0 ∧ win0_1.index t 1 = t.val % 16 ∧ win0_1.index t 2 = 0)

theorem qblk_eq (c : Dev nD) (t : Fin cfg0.N) :
    qblk m c t = Cert.Dist.rows (xarr m c) (1024 * (t.val / 16)) 1024
      (by have := t.isLt; have hN : cfg0.N = 128 := N_0; omega) := by
  obtain ⟨h0, h1, h2⟩ := index0 t
  funext j
  show iblk m c 0 t j = _
  unfold iblk Cert.Dist.rows
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t 0 * 4 + 1 * (j 0).val = (j 0).val; rw [h0]; omega
  | ⟨1, _⟩ => show win0_0.index t 1 * 1024 + 1 * (j 1).val = 1024 * (t.val / 16) + (j 1).val; rw [h1]; omega
  | ⟨2, _⟩ => show win0_0.index t 2 * 3 + 1 * (j 2).val = (j 2).val; rw [h2]; omega

theorem kblk_eq (c : Dev nD) (t : Fin cfg0.N) :
    kblk m c t = Cert.Dist.rows (yarr m c) (512 * (t.val % 16)) 512 (by omega) := by
  obtain ⟨h0, h1, h2⟩ := index1 t
  funext j
  show iblk m c 1 t j = _
  unfold iblk Cert.Dist.rows
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ => show win0_1.index t 0 * 4 + 1 * (j 0).val = (j 0).val; rw [h0]; omega
  | ⟨1, _⟩ => show win0_1.index t 1 * 512 + 1 * (j 1).val = 512 * (t.val % 16) + (j 1).val; rw [h1]; omega
  | ⟨2, _⟩ => show win0_1.index t 2 * 3 + 1 * (j 2).val = (j 2).val; rw [h2]; omega

end Cert.KernelIdeal.Blocks

end
-- ==== Proof.Sweep.lean ====
/-
  The two scratch buffers after every grid point.

  Grid point `t` is key tile `t % 16` of the sweep for query tile `t / 16`. After it, the running minima hold, for each
  cloud `n` and each query point `p` of the tile, the least squared distance from query point `1024 (t / 16) + p` to the
  key points of key tiles `0` to `t % 16`; the running sums hold, for each cloud, the clamped row minima summed over the
  query tiles whose sweep is over: `t / 16` of them, and one more when `t` ends a sweep. By induction on the point: a
  sweep's first point starts the minima from +∞, any other point meets the tile's minimum into what the point before
  left; the sums start from zero at the very first point, take the finished sweep's clamped minima at a sweep's last
  point, and are kept otherwise.
-/
import proofs.«176072_j11261404250604_1_alg».proof.Proof.Pieces
import proofs.«176072_j11261404250604_1_alg».proof.Proof.Payload
import proofs.«176072_j11261404250604_1_alg».proof.Proof.Blocks
import proofs.«176072_j11261404250604_1_alg».proof.Proof.Nearest

noncomputable section

namespace Cert.KernelIdeal.Sweep

open Idealize.ShloMosaic Idealize.ShloMosaic.TcCoe Idealize.ShloMosaic.ValueIdx Idealize.SL.Sem
open Cert.KernelIdeal Cert.KernelIdeal.Gen Cert.KernelIdeal.Blocks Cert.Nearest

variable (m : (ℓ : Loc nD τ sig) → Buf (Elt Ideal) ℓ)

/-- The table of squared distances of cloud `n`, from the argument arrays as the run finds them. -/
abbrev tbl (c : Dev nD) (n : Fin 4) : ℕ → ℕ → EReal := Cert.Dist.table (xarr m c) (yarr m c) n

/-- What the point before `t` left in the running minima and in the running sums. -/
abbrev prevMin (c : Dev nD) (t : Fin cfg0.N) : Vec Ideal S4x1024 .f32 :=
  (outsAt0 m c (t.val - 1) (Nat.lt_of_le_of_lt (Nat.sub_le _ _) t.isLt)).2.1
abbrev prevSum (c : Dev nD) (t : Fin cfg0.N) : Vec Ideal S4x1 .f32 :=
  (outsAt0 m c (t.val - 1) (Nat.lt_of_le_of_lt (Nat.sub_le _ _) t.isLt)).2.2

/-! ## Each kind of point, as payloads of the blocks and of what the point before left -/

theorem min_first (c : Dev nD) (t : Fin cfg0.N) (h0 : t.val % 16 = 0) (h1 : t.val % 128 = 0) (h2 : ¬t.val % 16 = 15) (h3 : ¬t.val % 128 = 127) :
    (outsAt0 m c t.val t.isLt).2.1 = k0_pay4 (F := Ideal) (qblk m c t) (kblk m c t) (k0_pay2 (F := Ideal)) := by
  rw [outsAt0_A m c t h0 h1 h2 h3]; dsimp only
  exact Pieces.sout_A_0 (F := Ideal) c (grid0.coords t) (ms0_0 t) (hs0_0 t) (ms0_1 t) (hs0_1 t) (ms0_2 t) (hs0_2 t) scM0_0
    (Memref.isWhole_whole _) scM0_1 (Memref.isWhole_whole _) (qblk m c t) (kblk m c t) _ _ _ _

theorem sum_first (c : Dev nD) (t : Fin cfg0.N) (h0 : t.val % 16 = 0) (h1 : t.val % 128 = 0) (h2 : ¬t.val % 16 = 15) (h3 : ¬t.val % 128 = 127) :
    (outsAt0 m c t.val t.isLt).2.2 = k0_pay3 (F := Ideal) := by
  rw [outsAt0_A m c t h0 h1 h2 h3]; dsimp only
  exact Pieces.sout_A_1 (F := Ideal) c (grid0.coords t) (ms0_0 t) (hs0_0 t) (ms0_1 t) (hs0_1 t) (ms0_2 t) (hs0_2 t) scM0_0
    (Memref.isWhole_whole _) scM0_1 (Memref.isWhole_whole _) (qblk m c t) (kblk m c t) _ _ _ _

theorem min_mid (c : Dev nD) (t : Fin cfg0.N) (h0 : ¬t.val % 16 = 0) (h1 : ¬t.val % 128 = 0) (h2 : ¬t.val % 16 = 15) (h3 : ¬t.val % 128 = 127) :
    (outsAt0 m c t.val t.isLt).2.1 = k0_pay4 (F := Ideal) (qblk m c t) (kblk m c t) (prevMin m c t) := by
  rw [outsAt0_B m c t h0 h1 h2 h3]; dsimp only
  exact Pieces.sout_B_0 (F := Ideal) c (grid0.coords t) (ms0_0 t) (hs0_0 t) (ms0_1 t) (hs0_1 t) (ms0_2 t) (hs0_2 t) scM0_0
    (Memref.isWhole_whole _) scM0_1 (Memref.isWhole_whole _) (qblk m c t) (kblk m c t) (prevMin m c t) (prevSum m c t) _ _ _ _

theorem sum_mid (c : Dev nD) (t : Fin cfg0.N) (h0 : ¬t.val % 16 = 0) (h1 : ¬t.val % 128 = 0) (h2 : ¬t.val % 16 = 15) (h3 : ¬t.val % 128 = 127) :
    (outsAt0 m c t.val t.isLt).2.2 = prevSum m c t := by
  rw [outsAt0_B m c t h0 h1 h2 h3]; rfl

theorem min_last (c : Dev nD) (t : Fin cfg0.N) (h0 : ¬t.val % 16 = 0) (h1 : ¬t.val % 128 = 0) (h2 : t.val % 16 = 15) (h3 : ¬t.val % 128 = 127) :
    (outsAt0 m c t.val t.isLt).2.1 = k0_pay4 (F := Ideal) (qblk m c t) (kblk m c t) (prevMin m c t) := by
  rw [outsAt0_C m c t h0 h1 h2 h3]; dsimp only
  exact Pieces.sout_C_0 (F := Ideal) c (grid0.coords t) (ms0_0 t) (hs0_0 t) (ms0_1 t) (hs0_1 t) (ms0_2 t) (hs0_2 t) scM0_0
    (Memref.isWhole_whole _) scM0_1 (Memref.isWhole_whole _) (qblk m c t) (kblk m c t) (prevMin m c t) (prevSum m c t) _ _ _ _

theorem sum_last (c : Dev nD) (t : Fin cfg0.N) (h0 : ¬t.val % 16 = 0) (h1 : ¬t.val % 128 = 0) (h2 : t.val % 16 = 15) (h3 : ¬t.val % 128 = 127) :
    (outsAt0 m c t.val t.isLt).2.2 = k0_pay1 (F := Ideal) (k0_pay4 (F := Ideal) (qblk m c t) (kblk m c t) (prevMin m c t)) (prevSum m c t) := by
  rw [outsAt0_C m c t h0 h1 h2 h3]; dsimp only
  exact Pieces.sout_C_1 (F := Ideal) c (grid0.coords t) (ms0_0 t) (hs0_0 t) (ms0_1 t) (hs0_1 t) (ms0_2 t) (hs0_2 t) scM0_0
    (Memref.isWhole_whole _) scM0_1 (Memref.isWhole_whole _) (qblk m c t) (kblk m c t) (prevMin m c t) (prevSum m c t) _ _ _ _

theorem min_next (c : Dev nD) (t : Fin cfg0.N) (h0 : t.val % 16 = 0) (h1 : ¬t.val % 128 = 0) (h2 : ¬t.val % 16 = 15) (h3 : ¬t.val % 128 = 127) :
    (outsAt0 m c t.val t.isLt).2.1 = k0_pay4 (F := Ideal) (qblk m c t) (kblk m c t) (k0_pay2 (F := Ideal)) := by
  rw [outsAt0_D m c t h0 h1 h2 h3]; dsimp only
  exact Pieces.sout_D_0 (F := Ideal) c (grid0.coords t) (ms0_0 t) (hs0_0 t) (ms0_1 t) (hs0_1 t) (ms0_2 t) (hs0_2 t) scM0_0
    (Memref.isWhole_whole _) scM0_1 (Memref.isWhole_whole _) (qblk m c t) (kblk m c t) (prevSum m c t) _ _ _ _

theorem sum_next (c : Dev nD) (t : Fin cfg0.N) (h0 : t.val % 16 = 0) (h1 : ¬t.val % 128 = 0) (h2 : ¬t.val % 16 = 15) (h3 : ¬t.val % 128 = 127) :
    (outsAt0 m c t.val t.isLt).2.2 = prevSum m c t := by
  rw [outsAt0_D m c t h0 h1 h2 h3]; rfl

theorem min_end (c : Dev nD) (t : Fin cfg0.N) (h0 : ¬t.val % 16 = 0) (h1 : ¬t.val % 128 = 0) (h2 : t.val % 16 = 15) (h3 : t.val % 128 = 127) :
    (outsAt0 m c t.val t.isLt).2.1 = k0_pay4 (F := Ideal) (qblk m c t) (kblk m c t) (prevMin m c t) := by
  rw [outsAt0_E m c t h0 h1 h2 h3]; dsimp only
  exact Pieces.sout_E_0 (F := Ideal) c (grid0.coords t) (ms0_0 t) (hs0_0 t) (ms0_1 t) (hs0_1 t) (ms0_2 t) (hs0_2 t) scM0_0
    (Memref.isWhole_whole _) scM0_1 (Memref.isWhole_whole _) (qblk m c t) (kblk m c t) (prevMin m c t) (prevSum m c t) _ _ _ _

theorem sum_end (c : Dev nD) (t : Fin cfg0.N) (h0 : ¬t.val % 16 = 0) (h1 : ¬t.val % 128 = 0) (h2 : t.val % 16 = 15) (h3 : t.val % 128 = 127) :
    (outsAt0 m c t.val t.isLt).2.2 = k0_pay1 (F := Ideal) (k0_pay4 (F := Ideal) (qblk m c t) (kblk m c t) (prevMin m c t)) (prevSum m c t) := by
  rw [outsAt0_E m c t h0 h1 h2 h3]; dsimp only
  exact Pieces.sout_E_1 (F := Ideal) c (grid0.coords t) (ms0_0 t) (hs0_0 t) (ms0_1 t) (hs0_1 t) (ms0_2 t) (hs0_2 t) scM0_0
    (Memref.isWhole_whole _) scM0_1 (Memref.isWhole_whole _) (qblk m c t) (kblk m c t) (prevMin m c t) (prevSum m c t) _ _ _ _

theorem out_end (c : Dev nD) (t : Fin cfg0.N) (h0 : ¬t.val % 16 = 0) (h1 : ¬t.val % 128 = 0) (h2 : t.val % 16 = 15) (h3 : t.val % 128 = 127) :
    (outsAt0 m c t.val t.isLt).1 = k0_pay1 (F := Ideal) (k0_pay4 (F := Ideal) (qblk m c t) (kblk m c t) (prevMin m c t)) (prevSum m c t) := by
  rw [outsAt0_E m c t h0 h1 h2 h3]; dsimp only
  exact Pieces.out_E_2 (F := Ideal) c (grid0.coords t) (ms0_0 t) (hs0_0 t) (ms0_1 t) (hs0_1 t) (ms0_2 t) (hs0_2 t) scM0_0
    (Memref.isWhole_whole _) scM0_1 (Memref.isWhole_whole _) (qblk m c t) (kblk m c t) (prevMin m c t) (prevSum m c t) _ _ _ _

/-! ## One point's arithmetic, in terms of the table -/

/-- The least squared distance among the pairs the body forms at point `t` for its query row `p` is the least entry of
    row `1024 (t / 16) + p` of the table within column tile `t % 16`: the blocks are rows of the argument arrays. -/
theorem tile_eq (c : Dev nD) (t : Fin cfg0.N) (n : Fin 4) (p : Fin 1024) :
    (⨅ k : Fin 512, Cert.Dist.d2 (qblk m c t) (kblk m c t) n p k)
      = tileMin (tbl m c n) (1024 * (t.val / 16) + p.val) (t.val % 16) := by
  unfold tileMin
  refine iInf_congr fun k => ?_
  rw [qblk_eq, kblk_eq, Cert.Dist.d2_rows]
  exact (Cert.Dist.table_eq (xarr m c) (yarr m c) n _ _).symm

/-- The update of the running minima at point `t`, over minima that covered the tiles before `t`'s. -/
theorem min_step (c : Dev nD) (t : Fin cfg0.N) (prev : Vec Ideal S4x1024 .f32) (n : Fin 4) (p : Fin 1024)
    (hprev : prev (ix2 n p) = runMin (tbl m c n) (1024 * (t.val / 16) + p.val) (t.val % 16)) :
    k0_pay4 (F := Ideal) (qblk m c t) (kblk m c t) prev (ix2 n p)
      = runMin (tbl m c n) (1024 * (t.val / 16) + p.val) (t.val % 16 + 1) := by
  refine (Payload.pay4_apply (qblk m c t) (kblk m c t) prev n p).trans ?_
  rw [tile_eq, hprev, runMin_succ]

/-- The update of the running sums at the end of the sweep for query tile `I`, over minima that are the row minima. -/
theorem sum_step (c : Dev nD) (I : ℕ) (mb : Vec Ideal S4x1024 .f32) (acc : Vec Ideal S4x1 .f32) (n : Fin 4) (u : Fin 1)
    (hmb : ∀ p : Fin 1024, mb (ix2 n p) = rowMin (tbl m c n) (1024 * I + p.val))
    (hacc : acc (ix2 n u) = runSum (tbl m c n) I) :
    k0_pay1 (F := Ideal) mb acc (ix2 n u) = runSum (tbl m c n) (I + 1) := by
  refine (Payload.pay1_apply mb acc n u).trans ?_
  rw [hacc, runSum_succ]
  refine congrArg (runSum (tbl m c n) I + ·) ?_
  unfold tileSum
  exact Finset.sum_congr rfl fun p _ => by rw [hmb p]

/-! ## The invariant -/

/-- After point `t`: the minima cover key tiles `0` to `t % 16` for the query rows of tile `t / 16`; the sums cover
    the query tiles whose sweep is over. -/
def Holds (c : Dev nD) (t : ℕ) (ht : t < cfg0.N) : Prop :=
  (∀ (n : Fin 4) (p : Fin 1024),
      (outsAt0 m c t ht).2.1 (ix2 n p) = runMin (tbl m c n) (1024 * (t / 16) + p.val) (t % 16 + 1))
    ∧ ∀ (n : Fin 4) (u : Fin 1),
      (outsAt0 m c t ht).2.2 (ix2 n u) = runSum (tbl m c n) (if t % 16 = 15 then t / 16 + 1 else t / 16)

/-- What the body computes for the sums at the last point of a sweep, given the invariant at the point before. -/
theorem end_sum (c : Dev nD) (k : ℕ) (ht : k + 1 < cfg0.N) (h2 : (k + 1) % 16 = 15)
    (ih : Holds m c k (Nat.lt_of_succ_lt ht)) (n : Fin 4) (u : Fin 1) :
    k0_pay1 (F := Ideal) (k0_pay4 (F := Ideal) (qblk m c ⟨k + 1, ht⟩) (kblk m c ⟨k + 1, ht⟩) (prevMin m c ⟨k + 1, ht⟩))
        (prevSum m c ⟨k + 1, ht⟩) (ix2 n u)
      = runSum (tbl m c n) ((k + 1) / 16 + 1) := by
  obtain ⟨ihm, ihs⟩ := ih
  refine sum_step m c ((k + 1) / 16) _ _ n u (fun p => ?_) ?_
  · refine (min_step m c ⟨k + 1, ht⟩ (prevMin m c ⟨k + 1, ht⟩) n p ?_).trans ?_
    · refine (ihm n p).trans ?_
      show runMin _ (1024 * (k / 16) + p.val) (k % 16 + 1) = runMin _ (1024 * ((k + 1) / 16) + p.val) ((k + 1) % 16)
      rw [show k / 16 = (k + 1) / 16 by omega, show k % 16 + 1 = (k + 1) % 16 by omega]
    · show runMin _ (1024 * ((k + 1) / 16) + p.val) ((k + 1) % 16 + 1) = _
      rw [h2]
      exact runMin_all _ _
  · refine (ihs n u).trans ?_
    rw [if_neg (by omega), show k / 16 = (k + 1) / 16 by omega]

theorem holds (c : Dev nD) : ∀ (t : ℕ) (ht : t < cfg0.N), Holds m c t ht
  | 0, ht => by
    refine ⟨fun n p => ?_, fun n u => ?_⟩
    · rw [show (outsAt0 m c 0 ht).2.1 = _ from min_first m c ⟨0, ht⟩ rfl rfl (show ¬(0 : ℕ) % 16 = 15 by decide) (show ¬(0 : ℕ) % 128 = 127 by decide)]
      refine (min_step m c ⟨0, ht⟩ _ n p ?_).trans rfl
      rw [Payload.pay2_apply]
      exact (runMin_zero _ _).symm
    · rw [show (outsAt0 m c 0 ht).2.2 = _ from sum_first m c ⟨0, ht⟩ rfl rfl (show ¬(0 : ℕ) % 16 = 15 by decide) (show ¬(0 : ℕ) % 128 = 127 by decide), Payload.pay3_apply]
      exact (runSum_zero _).symm
  | k + 1, ht => by
    have hN : cfg0.N = 128 := N_0
    have ih := holds c k (Nat.lt_of_succ_lt ht)
    have h1 : ¬(k + 1) % 128 = 0 := by omega
    by_cases h0 : (k + 1) % 16 = 0
    · -- the first key tile of a later sweep
      have h2 : ¬(k + 1) % 16 = 15 := by omega
      have h3 : ¬(k + 1) % 128 = 127 := by omega
      refine ⟨fun n p => ?_, fun n u => ?_⟩
      · rw [show (outsAt0 m c (k + 1) ht).2.1 = _ from min_next m c ⟨k + 1, ht⟩ h0 h1 h2 h3]
        refine (min_step m c ⟨k + 1, ht⟩ _ n p ?_).trans rfl
        rw [Payload.pay2_apply]
        show ⊤ = runMin _ _ ((k + 1) % 16)
        rw [h0, runMin_zero]
      · rw [show (outsAt0 m c (k + 1) ht).2.2 = _ from sum_next m c ⟨k + 1, ht⟩ h0 h1 h2 h3]
        refine (ih.2 n u).trans ?_
        rw [if_pos (by omega), if_neg h2, show k / 16 + 1 = (k + 1) / 16 by omega]
    · have hmin : ∀ (n : Fin 4) (p : Fin 1024),
          k0_pay4 (F := Ideal) (qblk m c ⟨k + 1, ht⟩) (kblk m c ⟨k + 1, ht⟩) (prevMin m c ⟨k + 1, ht⟩) (ix2 n p)
            = runMin (tbl m c n) (1024 * ((k + 1) / 16) + p.val) ((k + 1) % 16 + 1) := fun n p => by
        refine (min_step m c ⟨k + 1, ht⟩ (prevMin m c ⟨k + 1, ht⟩) n p ?_).trans rfl
        refine (ih.1 n p).trans ?_
        show runMin _ (1024 * (k / 16) + p.val) (k % 16 + 1) = runMin _ (1024 * ((k + 1) / 16) + p.val) ((k + 1) % 16)
        rw [show k / 16 = (k + 1) / 16 by omega, show k % 16 + 1 = (k + 1) % 16 by omega]
      by_cases h2 : (k + 1) % 16 = 15
      · by_cases h3 : (k + 1) % 128 = 127
        · -- the very last point
          refine ⟨fun n p => ?_, fun n u => ?_⟩
          · rw [show (outsAt0 m c (k + 1) ht).2.1 = _ from min_end m c ⟨k + 1, ht⟩ h0 h1 h2 h3]
            exact hmin n p
          · rw [show (outsAt0 m c (k + 1) ht).2.2 = _ from sum_end m c ⟨k + 1, ht⟩ h0 h1 h2 h3, if_pos h2]
            exact end_sum m c k ht h2 ih n u
        · -- the last key tile of a sweep that is not the last
          refine ⟨fun n p => ?_, fun n u => ?_⟩
          · rw [show (outsAt0 m c (k + 1) ht).2.1 = _ from min_last m c ⟨k + 1, ht⟩ h0 h1 h2 h3]
            exact hmin n p
          · rw [show (outsAt0 m c (k + 1) ht).2.2 = _ from sum_last m c ⟨k + 1, ht⟩ h0 h1 h2 h3, if_pos h2]
            exact end_sum m c k ht h2 ih n u
      · -- a point in the middle of a sweep
        have h3 : ¬(k + 1) % 128 = 127 := by omega
        refine ⟨fun n p => ?_, fun n u => ?_⟩
        · rw [show (outsAt0 m c (k + 1) ht).2.1 = _ from min_mid m c ⟨k + 1, ht⟩ h0 h1 h2 h3]
          exact hmin n p
        · rw [show (outsAt0 m c (k + 1) ht).2.2 = _ from sum_mid m c ⟨k + 1, ht⟩ h0 h1 h2 h3]
          refine (ih.2 n u).trans ?_
          rw [if_neg (by omega), if_neg h2, show k / 16 = (k + 1) / 16 by omega]

/-- At a grid point that is the last of the whole grid the output block holds, for each cloud, the sum over all its query
    points of the least squared distance to a key point, clamped at zero: it is the last point of the eighth sweep. -/
theorem out_at (c : Dev nD) (t : Fin cfg0.N) (h3 : t.val % 128 = 127) (n : Fin 4) (u : Fin 1) :
    (outsAt0 m c t.val t.isLt).1 (ix2 n u) = total (tbl m c n) := by
  have hN : cfg0.N = 128 := N_0
  obtain ⟨tv, ht⟩ := t
  obtain ⟨k, rfl⟩ : ∃ k, tv = k + 1 := ⟨tv - 1, by dsimp only at h3; omega⟩
  dsimp only at h3 ⊢
  have h2 : (k + 1) % 16 = 15 := by omega
  rw [show (outsAt0 m c (k + 1) ht).1 = _ from out_end m c ⟨k + 1, ht⟩ (by dsimp only; omega) (by dsimp only; omega) h2 h3]
  refine (end_sum m c k ht h2 (holds m c k (Nat.lt_of_succ_lt ht)) n u).trans ?_
  rw [show (k + 1) / 16 + 1 = 8 by omega]
  exact runSum_all _

/-- The last grid point. -/
theorem lt_last : 127 < cfg0.N := by rw [show cfg0.N = 128 from N_0]; decide
abbrev tLast : Fin cfg0.N := ⟨127, lt_last⟩

theorem out_final (c : Dev nD) (n : Fin 4) (u : Fin 1) :
    (outsAt0 m c tLast.val tLast.isLt).1 (ix2 n u) = total (tbl m c n) :=
  out_at m c tLast (by decide) n u

end Cert.KernelIdeal.Sweep

end
-- ==== Proof.LibColumnVector.lean ====
/-
  A column read as a vector: an array of shape [a, 1] cast to [a] reads, at i, the column's entry of row i. Both have
  row-major position i. (The converse, [a] cast to [a, 1], and the same two for a leading unit axis, are read the same way.)
-/
import Idealize.ShloMosaic.Lib.Pipeline.Value
import Idealize.ShloMosaic.Lib.ValueIdx

namespace Idealize.ShloMosaic.ValueIdx

open Idealize.ShloMosaic

variable {α : Type}

/-- An `[a, 1]` column cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.Result.lean ====
/-
  What the run leaves in the result.

  The region's output array has shape [4, 1]; its one block is the whole array, its block index never moves, and it is
  written back once, after the last grid point. What the last grid point leaves in the block is, for each cloud, the sum
  over all its query points of the least squared distance to a key point, clamped at zero; so the array ends holding that
  column. The host lines after the region read the column as a vector of four, sum it from zero and divide by 4.0: the
  result is the mean of the four per-cloud sums. The two argument arrays are only read.
-/
import proofs.«176072_j11261404250604_1_alg».proof.Proof.Sweep
import proofs.«176072_j11261404250604_1_alg».proof.Proof.LibColumnVector
import Idealize.ShloMosaic.Lib.Pipeline.Value
import Idealize.ShloMosaic.Lib.StableHlo.Run

noncomputable section

namespace Cert.KernelIdeal.Result

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The per-cloud sums: for each of the four clouds, the sum over its query points of the least squared distance to a key
    point, clamped at zero. -/
def perCloud (c : Dev nD) : FVec Ideal S4 .f32 := fun i => Cert.Nearest.total (Sweep.tbl m c (i 0))

/-- The mean the host lines take of a vector of four: its sum started from zero, divided by 4.0. -/
def mean4 (v : FVec Ideal S4 .f32) : FVec Ideal S_ .f32 :=
  Host.divf (Host.reduceAdd v (constant S_ .f32 0x00000000#32) reducesTo_S4_S_d0 h_S_) (constant S_ .f32 0x40800000#32)

/-! ## The region's output array after the region -/

/-- The column the region's output array ends holding: for each cloud, its total. -/
abbrev column (c : Dev nD) : Buf (Elt Ideal) ((c : Thread nD τ).loc main_call0_v0) :=
  fun i => Cert.Nearest.total (Sweep.tbl m c (i 0))

/-- The output block's index never moves: it is block (0, 0) at every grid point. -/
theorem index_zero : ∀ t : Fin cfg0.N, ∀ a, win0_2.index t a = 0 :=
  (by decide +kernel : ∀ t : Fin grid0.N, ∀ a, win0_2.index t a = 0)

/-- The block is as large as the array, on both axes, at every grid point. -/
theorem xsize_full : ∀ t : Fin cfg0.N, ∀ a, win0_2.xsize (grid0.coords t) a = S4x1.size a :=
  (by decide +kernel : ∀ t : Fin grid0.N, ∀ a, win0_2.xsize (grid0.coords t) a = S4x1.size a)

/-- The one write-back, at the last grid point, writes the column: the block read through zero offsets is the array. -/
theorem flushed_eq (c : Dev nD) (t : Fin cfg0.N) (hf : (cfg0.win 2).flush t = true) :
    (dats m 0 c).flushed 2 t = ((cfg0.win 2).blk t).view.read (Elt Ideal) (column m c) := by
  have hN : cfg0.N = 128 := N_0
  have h3 : t.val = 127 := by have := (flush0_2 t).mp hf; have := t.isLt; omega
  obtain rfl : t = Sweep.tLast := Fin.ext h3
  show (cfg0.win 2).cut (grid0.coords Sweep.tLast) ((dats m 0 c).after 2 Sweep.tLast) = _
  rw [after0_2]
  have hcol : (outsAt0 m c Sweep.tLast.val Sweep.tLast.isLt).1 = column m c :=
    funext fun i => by rw [eq_ix2 i]; exact Sweep.out_final m c (i 0) (i 1)
  rw [hcol]
  have hz' : (fun a => win0_2.index Sweep.tLast a * main_call0_v0.ty.shape.size a) = fun _ => 0 :=
    funext fun a => by rw [index_zero Sweep.tLast a, Nat.zero_mul]
  exact (Memref.read_access_unit_zero (Elt Ideal) main_call0_v0 hz' (fun a => by rw [congrFun hz' a]; simp) (column m c)).symm

/-- So the region's output array ends holding the column: the last grid point's block covers it. -/
theorem final (c : Dev nD) : (dats m 0 c).arrAt 2 cfg0.N = column m c :=
  (dats m 0 c).arrAt_eq_of_cover 2 (column m c) (flushed_eq m c) fun i =>
    ⟨Sweep.tLast, (flush0_2 Sweep.tLast).mpr rfl, by
      show i ∈ ((View.whole main_call0_v0).slice (win0_2.rect Sweep.tLast)).set
      rw [View.set_slice_whole, Rect.mem_set_unit]
      intro a
      show win0_2.index Sweep.tLast a * win0_2.size a ≤ (i a : Nat) ∧ (i a : Nat) < win0_2.index Sweep.tLast a * win0_2.size a + win0_2.xsize (grid0.coords Sweep.tLast) a
      rw [index_zero Sweep.tLast a, xsize_full Sweep.tLast a, Nat.zero_mul, Nat.zero_add]
      exact ⟨Nat.zero_le _, (i a).isLt⟩⟩

theorem run : θ_run defs (onTc (τ := τ) (main (F := Ideal))) ⟨m, fun _ => 0, ρ⟩ fun r => ∀ c : Dev nD,
      r.2.mem ((c.tc : Thread nD τ).loc main_v0) = mean4 (perCloud m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_, ?_⟩) (run_main m ρ)
  · refine ((h c).2 main_v0 (Pipeline.mem_restRefs_of main_v0 rfl (by decide))).trans ?_
    unfold Pipeline.afterTail₀
    show StableHlo.after hostOps1 _ (Proc.devRef .tc main_v0) = _
    after_results
    show mean4 (shapeCast S4 (Pipeline.withArrays spec0 c (V0 m c) (fun w => (dats m 0 c).arrAt w cfg0.N)
      (Proc.devRef .tc (Pipeline.arrRef spec0 2))) shapeCasts_S4x1_S4) = mean4 (perCloud m c)
    rw [Pipeline.withArrays_arr spec0 launch0.win.arr_inj c _ _ 2, final]
    refine congrArg mean4 (funext fun i => ?_)
    rw [eq_ix1 i]
    exact shapeCast_a1_a_apply _ _ (i 0)
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.Result

end
-- ==== Proof.lean ====
/-
  The one-directional Chamfer distance, tile by tile and in whole arrays.

  For two arrays of four clouds of 8192 points in three coordinates, both programs form for every cloud the squared
  distances |x|² + |y|² − 2·⟨x, y⟩ between its query points and its key points, take for each query point the least of them
  over the key points, clamp it at zero, sum over the query points, and average the four sums. The reference does it in
  whole arrays. The kernel visits 8 × 16 tiles of 1024 query points by 512 key points: across a sweep over the key tiles
  it keeps, per query point, the minimum met so far (started from +∞), and at the end of each sweep it adds the clamped
  minima, summed over the tile's query points, to a running sum per cloud (started from zero), which the last point
  hands to the output; the host then averages. Over the extended reals the minimum over all key points is the minimum over the tiles of the tiles' minima, and
  the sum over all query points is the sum over the tiles of the tiles' sums, additions of extended reals being
  commutative and associative; so the two results are the same function of the arguments, whatever the inputs hold.
  The ideal pass rewrote nothing, so the idealization is the kernel's own text.
-/
import proofs.«176072_j11261404250604_1_alg».proof.Defs
import proofs.«176072_j11261404250604_1_alg».proof.Proof.Gen.Kernel
import proofs.«176072_j11261404250604_1_alg».proof.Proof.Gen.Kernel.Frame
import proofs.«176072_j11261404250604_1_alg».proof.Proof.Gen.KernelIdeal
import proofs.«176072_j11261404250604_1_alg».proof.Proof.Gen.KernelIdeal.Frame
import proofs.«176072_j11261404250604_1_alg».proof.Proof.Gen.ReferenceIdeal
import proofs.«176072_j11261404250604_1_alg».proof.Proof.Gen.ReferenceIdeal.Run
import proofs.«176072_j11261404250604_1_alg».proof.Proof.Gen.ReferenceIdeal.Read
import proofs.«176072_j11261404250604_1_alg».proof.Proof.Gen.Pre_finite_inputs
import proofs.«176072_j11261404250604_1_alg».proof.Proof.RefValue
import proofs.«176072_j11261404250604_1_alg».proof.Proof.Result
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the mean of the four per-cloud sums of the same arguments. -/
theorem algebraic : Cert.algebraic_KernelIdeal_ReferenceIdeal := by
  intro m ρ m' ρ' _ hagree
  refine ⟨fun c => Cert.KernelIdeal.Result.mean4 (Cert.KernelIdeal.Result.perCloud m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
